-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x50 : Shape := ⟨3, ![512, 256, 50]⟩
abbrev S512x256x256 : Shape := ⟨3, ![512, 256, 256]⟩
abbrev S50x50 : Shape := ⟨2, ![50, 50]⟩
abbrev S50 : Shape := ⟨1, ![50]⟩
abbrev S_ : Shape := ⟨0, ![]⟩

class Facts : Prop where
  bcast_S_S512x256x50 : S_.BroadcastsInDim S512x256x50 (![] : Fin 0 → Fin S512x256x50.rank)
  reducesTo_S512x256x50_S_d0_1_2 : S512x256x50.ReducesTo [0, 1, 2] S_
  h_S_ : 0 < S_.numel
  bcast_S_S512x256x256 : S_.BroadcastsInDim S512x256x256 (![] : Fin 0 → Fin S512x256x256.rank)
  reducesTo_S512x256x256_S_d0_1_2 : S512x256x256.ReducesTo [0, 1, 2] S_
  bcast_S_S50x50 : S_.BroadcastsInDim S50x50 (![] : Fin 0 → Fin S50x50.rank)
  reducesTo_S50x50_S_d0_1 : S50x50.ReducesTo [0, 1] S_
  bcast_S_S50 : S_.BroadcastsInDim S50 (![] : Fin 0 → Fin S50.rank)
  reducesTo_S50_S_d0 : S50.ReducesTo [0] S_

variable [Facts]

def fn_part1 {F : FTy → Type} [FloatOps F] (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  main_v18

def fn {F : FTy → Type} [FloatOps F] (main_arg0 : FVec F S512x256x50 .f32) (main_arg1 : FVec F S512x256x256 .f32) (main_arg2 : FVec F S50x50 .f32) (main_arg3 : FVec F S50 .f32) : IVec S_ 1 :=
  let main_v0 : FVec F S512x256x50 .f32 := Host.absf main_arg0
  let main_cst : FVec F S_ .f32 := constant S_ .f32 0x7F800000#32
  let main_v1 : FVec F S512x256x50 .f32 := broadcastInDim S512x256x50 ![] bcast_S_S512x256x50 main_cst
  let main_v2 : IVec S512x256x50 1 := cmpf .olt main_v0 main_v1
  let main_c : IVec S_ 1 := constantI S_ 1 1#1
  let main_v3 : IVec S_ 1 := (fun x v => Host.reduce IntOp.andi x v reducesTo_S512x256x50_S_d0_1_2 h_S_) main_v2 main_c
  let main_v4 : FVec F S512x256x256 .f32 := Host.absf main_arg1
  let main_cst_0 : FVec F S_ .f32 := constant S_ .f32 0x7F800000#32
  let main_v5 : FVec F S512x256x256 .f32 := broadcastInDim S512x256x256 ![] bcast_S_S512x256x256 main_cst_0
  let main_v6 : IVec S512x256x256 1 := cmpf .olt main_v4 main_v5
  let main_c_1 : IVec S_ 1 := constantI S_ 1 1#1
  let main_v7 : IVec S_ 1 := (fun x v => Host.reduce IntOp.andi x v reducesTo_S512x256x256_S_d0_1_2 h_S_) main_v6 main_c_1
  let main_v8 : IVec S_ 1 := andi main_v3 main_v7
  let main_v9 : FVec F S50x50 .f32 := Host.absf main_arg2
  let main_cst_2 : FVec F S_ .f32 := constant S_ .f32 0x7F800000#32
  let main_v10 : FVec F S50x50 .f32 := broadcastInDim S50x50 ![] bcast_S_S50x50 main_cst_2
  let main_v11 : IVec S50x50 1 := cmpf .olt main_v9 main_v10
  let main_c_3 : IVec S_ 1 := constantI S_ 1 1#1
  let main_v12 : IVec S_ 1 := (fun x v => Host.reduce IntOp.andi x v reducesTo_S50x50_S_d0_1 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_v13 main_v16
-- ==== Kernel.lean ====
abbrev S512x256x50 : Shape := ⟨3, ![512, 256, 50]⟩
abbrev S512x256x256 : Shape := ⟨3, ![512, 256, 256]⟩
abbrev S50x50 : Shape := ⟨2, ![50, 50]⟩
abbrev S50 : Shape := ⟨1, ![50]⟩
abbrev S16x256x256 : Shape := ⟨3, ![16, 256, 256]⟩
abbrev S16x256x50 : Shape := ⟨3, ![16, 256, 50]⟩
abbrev S4096x50 : Shape := ⟨2, ![4096, 50]⟩
abbrev S1x50 : Shape := ⟨2, ![1, 50]⟩

abbrev nBuf : Space → Nat
  | .hbm => 6
  | .vmem => 8
  | .smem => 0
  | _ => 0

abbrev bufTy : (tb : Table) → Fin (tcTables nBuf tb) → BufTy
  | .hbm, ⟨0, _⟩ => ⟨S512x256x50, .f32⟩
  | .hbm, ⟨1, _⟩ => ⟨S512x256x256, .f32⟩
  | .hbm, ⟨2, _⟩ => ⟨S50x50, .f32⟩
  | .hbm, ⟨3, _⟩ => ⟨S50, .f32⟩
  | .hbm, ⟨4, _⟩ => ⟨S50x50, .f32⟩
  | .hbm, ⟨5, _⟩ => ⟨S512x256x50, .f32⟩
  | .local _ .vmem, ⟨0, _⟩ => ⟨S16x256x256, .f32⟩
  | .local _ .vmem, ⟨1, _⟩ => ⟨S16x256x256, .f32⟩
  | .local _ .vmem, ⟨2, _⟩ => ⟨S16x256x50, .f32⟩
  | .local _ .vmem, ⟨3, _⟩ => ⟨S16x256x50, .f32⟩
  | .local _ .vmem, ⟨4, _⟩ => ⟨S50x50, .f32⟩
  | .local _ .vmem, ⟨5, _⟩ => ⟨S50, .f32⟩
  | .local _ .vmem, ⟨6, _⟩ => ⟨S16x256x50, .f32⟩
  | .local _ .vmem, ⟨7, _⟩ => ⟨S16x256x50, .f32⟩
  | _, _ => ⟨S512x256x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S50x50_S50x50_1_0 : S50x50.Transposes [1, 0] S50x50
  inb_S16x256x256_S16x256x256_0_0_0 : ∀ a, (![0, 0, 0] : Fin 3 → Nat) a + S16x256x256.size a ≤ S16x256x256.size a
  h_S16x256x256 : 0 < S16x256x256.numel
  bitsLt_bf16_f32 : FTy.bits .bf16 < FTy.bits .f32
  inb_S16x256x50_S16x256x50_0_0_0 : ∀ a, (![0, 0, 0] : Fin 3 → Nat) a + S16x256x50.size a ≤ S16x256x50.size a
  h_S16x256x50 : 0 < S16x256x50.numel
  shapeCasts_S16x256x50_S4096x50 : S16x256x50.ShapeCasts S4096x50
  inb_S50x50_S50x50_0_0 : ∀ a, (![0, 0] : Fin 2 → Nat) a + S50x50.size a ≤ S50x50.size a
  h_S50x50 : 0 < S50x50.numel
  shapeCasts_S50x50_S50x50 : S50x50.ShapeCasts S50x50
  inb_S50_S50_0 : ∀ a, (![0] : Fin 1 → Nat) a + S50.size a ≤ S50.size a
  h_S50 : 0 < S50.numel
  shapeCasts_S50_S1x50 : S50.ShapeCasts S1x50
  broadcasts_S1x50_S4096x50 : S1x50.Broadcasts S4096x50
  shapeCasts_S4096x50_S16x256x50 : S4096x50.ShapeCasts S16x256x50
  dot_S16x256x256_S16x256x50_S16x256x50_2_1_1_2_0_0_wf : DotDims.WF S16x256x256 S16x256x50 S16x256x50 [2] [1] [1] [2] [0] [0]
  dot_S4096x50_S50x50_S4096x50_1_0_0_1_n_n_wf : DotDims.WF S4096x50 S50x50 S4096x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S512x256x256.size a
  hwx0_0 : ∀ i : grid0.Coords, EltTy.bits .f32 = 32 ∨ (Rect.block (s := S512x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x50.size a ≤ S512x256x50.size a
  hwx0_1 : ∀ i : grid0.Coords, EltTy.bits .f32 = 32 ∨ (Rect.block (s := S512x256x50) S16x256x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x50.size a ≤ S50x50.size a
  hwx0_2 : ∀ i : grid0.Coords, EltTy.bits .f32 = 32 ∨ (Rect.block (s := S50x50) S50x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50.size a ≤ S50.size a
  hwx0_3 : ∀ i : grid0.Coords, EltTy.bits .f32 = 32 ∨ (Rect.block (s := S50) S50.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x50.size a ≤ S512x256x50.size a
  hwx0_4 : ∀ i : grid0.Coords, EltTy.bits .f32 = 32 ∨ (Rect.block (s := S512x256x50) S16x256x50.size (cc0_transform_4 i) (hinb0_4 i)).WholeWords (EltTy.packing .f32)

variable [Facts₀]

def dot_S16x256x256_S16x256x50_S16x256x50_2_1_1_2_0_0 : DotDims S16x256x256 S16x256x50 S16x256x50 where
  lhsContracting := [2]
  rhsContracting := [1]
  lhsNonContracting := [1]
  rhsNonContracting := [2]
  lhsBatch := [0]
  rhsBatch := [0]
  wf := dot_S16x256x256_S16x256x50_S16x256x50_2_1_1_2_0_0_wf
def dot_S4096x50_S50x50_S4096x50_1_0_0_1_n_n : DotDims S4096x50 S50x50 S4096x50 where
  lhsContracting := [1]
  rhsContracting := [0]
  lhsNonContracting := [0]
  rhsNonContracting := [1]
  lhsBatch := []
  rhsBatch := []
  wf := dot_S4096x50_S50x50_S4096x50_1_0_0_1_n_n_wf

abbrev win0_0 : Pipeline.Window sig grid0 :=
  Pipeline.Window.ofSpec (Memref.whole main_arg1) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16x256x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S50x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S16x256x50.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x256x50 : Shape := ⟨3, ![512, 256, 50]⟩
abbrev S512x256x256 : Shape := ⟨3, ![512, 256, 256]⟩
abbrev S50x50 : Shape := ⟨2, ![50, 50]⟩
abbrev S50 : Shape := ⟨1, ![50]⟩
abbrev S1x1x50 : Shape := ⟨3, ![1, 1, 50]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S512x256x50, .f32⟩
  | .hbm, ⟨1, _⟩ => ⟨S512x256x256, .f32⟩
  | .hbm, ⟨2, _⟩ => ⟨S50x50, .f32⟩
  | .hbm, ⟨3, _⟩ => ⟨S50, .f32⟩
  | .hbm, ⟨4, _⟩ => ⟨S512x256x50, .f32⟩
  | .hbm, ⟨5, _⟩ => ⟨S512x256x50, .f32⟩
  | .hbm, ⟨6, _⟩ => ⟨S1x1x50, .f32⟩
  | .hbm, ⟨7, _⟩ => ⟨S512x256x50, .f32⟩
  | .hbm, ⟨8, _⟩ => ⟨S512x256x50, .f32⟩
  | .hbm, ⟨9, _⟩ => ⟨S_, .f32⟩
  | .hbm, ⟨10, _⟩ => ⟨S512x256x50, .f32⟩
  | .hbm, ⟨11, _⟩ => ⟨S512x256x50, .f32⟩
  | _, _ => ⟨S512x256x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S50_S1x1x50_2 : S50.BroadcastsInDim S1x1x50 (![2] : Fin 1 → Fin S1x1x50.rank)
  bcast_S1x1x50_S512x256x50_0_1_2 : S1x1x50.BroadcastsInDim S512x256x50 (![0, 1, 2] : Fin 3 → Fin S512x256x50.rank)
  bcast_S_S512x256x50 : S_.BroadcastsInDim S512x256x50 (![] : Fin 0 → Fin S512x256x50.rank)
  dot_S512x256x256_S512x256x50_S512x256x50_2_1_1_2_0_0_wf : DotDims.WF S512x256x256 S512x256x50 S512x256x50 [2] [1] [1] [2] [0] [0]
  dot_S512x256x50_S50x50_S512x256x50_2_1_01_0_n_n_wf : DotDims.WF S512x256x50 S50x50 S512x256x50 [2] [1] [0, 1] [0] [] []

variable [Facts₀]

def dot_S512x256x256_S512x256x50_S512x256x50_2_1_1_2_0_0 : DotDims S512x256x256 S512x256x50 S512x256x50 where
  lhsContracting := [2]
  rhsContracting := [1]
  lhsNonContracting := [1]
  rhsNonContracting := [2]
  lhsBatch := [0]
  rhsBatch := [0]
  wf := dot_S512x256x256_S512x256x50_S512x256x50_2_1_1_2_0_0_wf
def dot_S512x256x50_S50x50_S512x256x50_2_1_01_0_n_n : DotDims S512x256x50 S50x50 S512x256x50 where
  lhsContracting := [2]
  rhsContracting := [1]
  lhsNonContracting := [0, 1]
  rhsNonContracting := [0]
  lhsBatch := []
  rhsBatch := []
  wf := dot_S512x256x50_S50x50_S512x256x50_2_1_01_0_n_n_wf

class Facts : Prop extends Facts₀ where

variable [Facts]
-- ==== Proof.GraphConvSpec.lean ====
/-
  One graph-convolution layer over a batch of 512 graphs of 256 nodes with 50 features per node.

  Each node first gathers the features of all nodes of its graph, weighted by the edge matrix: for graph `g`, node `n`
  and feature `d` the gathered value is the sum over the graph's nodes `k` of `efm[g, n, k] * nfm[g, k, d]`. The
  gathered row then passes through one affine map, whose weight matrix `W` is stored output-major (row `o` of `W`
  holds the coefficients of output feature `o`), a bias is added, and negative values are cut off at zero:

      layer[g, n, o] = max (sum over d of gathered[g, n, d] * W[o, d] + bias[o]) 0.

  Everything is over the extended reals. Both programs of this certificate compute the two sums in this very nesting and
  order of factors, so no law that could fail at an infinity (distributing a factor over a sum, exchanging the two sums)
  is needed anywhere: the bridge on each side is a matter of reading indices.
-/
import Idealize.ShloMosaic.PureOps.Ideal
import Idealize.ShloMosaic.Lib.ValueIdx

noncomputable section

open scoped BigOperators

namespace Cert.GraphConv

open Idealize.ShloMosaic Idealize.ShloMosaic.ValueIdx

/-- Edge weights: one 256 × 256 matrix per graph. -/
abbrev SEdges : Shape := ⟨3, ![512, 256, 256]⟩
/-- Node features, on the way in and on the way out: 50 per node. -/
abbrev SNodes : Shape := ⟨3, ![512, 256, 50]⟩
/-- The affine map's matrix, output feature by input feature. -/
abbrev SWeight : Shape := ⟨2, ![50, 50]⟩
/-- One bias per output feature. -/
abbrev SBias : Shape := ⟨1, ![50]⟩

/-- What node `n` of graph `g` gathers of feature `d`: every node `k` of the graph contributes its feature, weighted by
    the edge from `n` to `k`. -/
def gathered (efm : SEdges.Idx → EReal) (nfm : SNodes.Idx → EReal) (g : Fin 512) (n : Fin 256) (d : Fin 50) : EReal :=
  ∑ k : Fin 256, efm (ix3 g n k) * nfm (ix3 g k d)

/-- The layer's result at graph `g`, node `n`, output feature `o`. -/
def layerAt (nfm : SNodes.Idx → EReal) (efm : SEdges.Idx → EReal) (W : SWeight.Idx → EReal) (bias : SBias.Idx → EReal)
    (g : Fin 512) (n : Fin 256) (o : Fin 50) : EReal :=
  max ((∑ d : Fin 50, gathered efm nfm g n d * W (ix2 o d)) + bias (ix1 o)) 0

/-- The layer as one function of the four argument arrays, index by index. -/
def layer (nfm : SNodes.Idx → EReal) (efm : SEdges.Idx → EReal) (W : SWeight.Idx → EReal) (bias : SBias.Idx → EReal) :
    SNodes.Idx → EReal :=
  fun i => layerAt nfm efm W bias (i 0) (i 1) (i 2)

theorem layer_apply (nfm : SNodes.Idx → EReal) (efm : SEdges.Idx → EReal) (W : SWeight.Idx → EReal) (bias : SBias.Idx → EReal)
    (g : Fin 512) (n : Fin 256) (o : Fin 50) : layer nfm efm W bias (ix3 g n o) = layerAt nfm efm W bias g n o := rfl

end Cert.GraphConv

end
-- ==== Proof.ReferenceIsLayer.lean ====
/-
  The reference program computes the graph-convolution layer.

  Its run ends with the result at the composition of eight host operations: the batched product of the edge matrices
  with the node features (a sum over the 256 nodes of a graph), the product of that with the weight matrix contracted
  over the weight's SECOND axis (a sum over the 50 input features; this is where the output-major storage of `W`
  shows), the bias broadcast along graphs and nodes, the sum, and the maximum with a broadcast zero. Read at an index
  `(g, n, o)` each of these is the corresponding piece of `Cert.GraphConv.layerAt`, with the same nesting of the two
  sums and the same order of the factors, so nothing but index bookkeeping is left: every operand index the stages
  compute from `(g, n, o)` and the summation variables is the index the specification writes with coordinates.
-/
import proofs.«140733_j35081292874421_1_alg».proof.Proof.Gen.ReferenceIdeal.Read
import proofs.«140733_j35081292874421_1_alg».proof.Proof.GraphConvSpec

noncomputable section

open scoped BigOperators

namespace Cert.GraphConv.Reference

open Cert.ReferenceIdeal Cert.ReferenceIdeal.Gen Cert.ReferenceIdeal.Read Cert.GraphConv
open Idealize.ShloMosaic Idealize.ShloMosaic.ValueIdx

/-! ## The operand indices of the stages, in coordinates -/

/-- The first product reads the edge matrix of graph `g` at row `n`, column `k`: the index the second product asks it at
    has coordinates `(g, n, d)`, and the contracted node `k` takes the last place. -/
theorem edge_index (g : Fin 512) (n : Fin 256) (o d : Fin 50) (k : Fin 256) :
    lidx_main_v0 (lidx_main_v1 (ix3 g n o) d) k = ix3 g n k :=
  funext fun a => Fin.ext (by match a with | ⟨0, _⟩ => rfl | ⟨1, _⟩ => rfl | ⟨2, _⟩ => rfl)

/-- … and the node features of graph `g` at node `k`, feature `d`. -/
theorem node_index (g : Fin 512) (n : Fin 256) (o d : Fin 50) (k : Fin 256) :
    ridx_main_v0 (lidx_main_v1 (ix3 g n o) d) k = ix3 g k d :=
  funext fun a => Fin.ext (by match a with | ⟨0, _⟩ => rfl | ⟨1, _⟩ => rfl | ⟨2, _⟩ => rfl)

/-- The second product reads the weight matrix at row `o` (the output feature), column `d` (the contracted input
    feature). -/
theorem weight_index (g : Fin 512) (n : Fin 256) (o d : Fin 50) :
    ridx_main_v1 (ix3 g n o) d = ix2 o d :=
  funext fun a => Fin.ext (by match a with | ⟨0, _⟩ => rfl | ⟨1, _⟩ => rfl)

/-- The bias, broadcast twice, is read at the output feature. -/
theorem bias_index (g : Fin 512) (n : Fin 256) (o : Fin 50) :
    idx_main_v2 (idx_main_v3 (ix3 g n o)) = ix1 o :=
  funext fun a => Fin.ext (by match a with | ⟨0, _⟩ => rfl)

/-! ## The last stage is the layer -/

/-- The reference's result, as the last of its stages, is the layer of the four argument arrays. -/
theorem result_is_layer (nfm : FVec Ideal S512x256x50 .f32) (efm : FVec Ideal S512x256x256 .f32)
    (W : FVec Ideal S50x50 .f32) (bias : FVec Ideal S50 .f32) :
    val_main_v5 (F := Ideal) nfm efm W bias = layer nfm efm W bias := by
  funext i
  obtain ⟨g, n, o, rfl⟩ : ∃ (g : Fin 512) (n : Fin 256) (o : Fin 50), i = ix3 g n o := ⟨i 0, i 1, i 2, eq_ix3 i⟩
  rw [layer_apply, val_main_v5_apply, val_main_v4_apply, val_main_v1_apply, val_main_v3_apply, val_main_v2_apply,
    val_main_call0_v0_apply, val_main_call0_cst_apply]
  simp only [val_main_v0_apply, edge_index, node_index, weight_index, bias_index]
  simp only [layerAt, gathered, Ideal.maximumf_def, Ideal.addf_def, Ideal.ofBits_def, Ideal.ofBits_zero_f32]

end Cert.GraphConv.Reference

end
-- ==== Proof.LayerBody.lean ====
/-
  What the kernel's body stores, read at one element of the output block.

  One grid step holds 16 graphs. The body multiplies each graph's edge matrix by its node features (a batched matrix
  product: a sum over the 256 nodes), folds the 16 × 256 rows `(b, n)` into one axis of 4096 rows — row `b * 256 + n` —,
  multiplies by the already transposed weight matrix (a sum over the 50 input features), adds the bias as one row
  broadcast down the 4096 rows, takes the maximum with zero, and unfolds the rows again. The changes of float format in
  between are the identity on extended reals, and both products accumulate into a zero block, so at element `(b, n, o)`
  the stored value is

      max (sum over d of (sum over k of edges[b, n, k] * nodes[b, k, d]) * wt[d, o] + bias[o]) 0.

  The two products are read through the one-coordinate contraction index, exactly as a host `dot_general` is.
-/
import proofs.«140733_j35081292874421_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GraphConv.Body

open Cert.KernelIdeal Cert.KernelIdeal.Gen
open Idealize.ShloMosaic Idealize.ShloMosaic.ValueIdx

/-! ## The edge product: graph by graph, rows of the edge matrix against columns of the node features -/

theorem edges_lhs_0 (i : S16x256x50.Idx) (q : dot_S16x256x256_S16x256x50_S16x256x50_2_1_1_2_0_0.contr.Idx) :
    (dot_S16x256x256_S16x256x50_S16x256x50_2_1_1_2_0_0.lhsIdx i q 0).val = (i 0).val := by
  unfold DotDims.lhsIdx
  rw [dif_pos (show (0 : Fin S16x256x256.rank) ∈ dot_S16x256x256_S16x256x50_S16x256x50_2_1_1_2_0_0.lhsBatch by decide)]
  rfl
theorem edges_lhs_1 (i : S16x256x50.Idx) (q : dot_S16x256x256_S16x256x50_S16x256x50_2_1_1_2_0_0.contr.Idx) :
    (dot_S16x256x256_S16x256x50_S16x256x50_2_1_1_2_0_0.lhsIdx i q 1).val = (i 1).val := by
  unfold DotDims.lhsIdx
  rw [dif_neg (show ¬(1 : Fin S16x256x256.rank) ∈ dot_S16x256x256_S16x256x50_S16x256x50_2_1_1_2_0_0.lhsBatch by decide), dif_pos (show (1 : Fin S16x256x256.rank) ∈ dot_S16x256x256_S16x256x50_S16x256x50_2_1_1_2_0_0.lhsNonContracting by decide)]
  rfl
theorem edges_lhs_2 (i : S16x256x50.Idx) (q : dot_S16x256x256_S16x256x50_S16x256x50_2_1_1_2_0_0.contr.Idx) :
    (dot_S16x256x256_S16x256x50_S16x256x50_2_1_1_2_0_0.lhsIdx i q 2).val = (q ⟨0, by decide⟩).val :=
  dot_S16x256x256_S16x256x50_S16x256x50_2_1_1_2_0_0.lhsIdx_val_of_single rfl i q
theorem edges_rhs_0 (i : S16x256x50.Idx) (q : dot_S16x256x256_S16x256x50_S16x256x50_2_1_1_2_0_0.contr.Idx) :
    (dot_S16x256x256_S16x256x50_S16x256x50_2_1_1_2_0_0.rhsIdx i q 0).val = (i 0).val := by
  unfold DotDims.rhsIdx
  rw [dif_pos (show (0 : Fin S16x256x50.rank) ∈ dot_S16x256x256_S16x256x50_S16x256x50_2_1_1_2_0_0.rhsBatch by decide)]
  rfl
theorem edges_rhs_1 (i : S16x256x50.Idx) (q : dot_S16x256x256_S16x256x50_S16x256x50_2_1_1_2_0_0.contr.Idx) :
    (dot_S16x256x256_S16x256x50_S16x256x50_2_1_1_2_0_0.rhsIdx i q 1).val = (q ⟨0, by decide⟩).val :=
  dot_S16x256x256_S16x256x50_S16x256x50_2_1_1_2_0_0.rhsIdx_val_of_single rfl i q
theorem edges_rhs_2 (i : S16x256x50.Idx) (q : dot_S16x256x256_S16x256x50_S16x256x50_2_1_1_2_0_0.contr.Idx) :
    (dot_S16x256x256_S16x256x50_S16x256x50_2_1_1_2_0_0.rhsIdx i q 2).val = (i 2).val := by
  unfold DotDims.rhsIdx
  rw [dif_neg (show ¬(2 : Fin S16x256x50.rank) ∈ dot_S16x256x256_S16x256x50_S16x256x50_2_1_1_2_0_0.rhsBatch by decide), dif_pos (show (2 : Fin S16x256x50.rank) ∈ dot_S16x256x256_S16x256x50_S16x256x50_2_1_1_2_0_0.rhsNonContracting by decide)]
  rfl

/-- The batched product into a zero block, at graph `b`, node `n`, feature `d`: node `n`'s row of graph `b`'s edge matrix
    against feature `d` of graph `b`'s nodes. -/
theorem edgeProduct_apply (e : FVec Ideal S16x256x256 .bf16) (f : FVec Ideal S16x256x50 .bf16)
    (b : Fin 16) (n : Fin 256) (d : Fin 50) :
    matmul dot_S16x256x256_S16x256x50_S16x256x50_2_1_1_2_0_0 none e f (constant (F := Ideal) S16x256x50 .f32 0x00000000#32) (ix3 b n d)
      = ∑ k : Fin 256, e (ix3 b n k) * f (ix3 b k d) := by
  simp only [matmul]
  rw [Ideal.matmul_constant_zero_apply, ← Equiv.sum_comp (contrEquiv1 dot_S16x256x256_S16x256x50_S16x256x50_2_1_1_2_0_0 256 rfl rfl).symm]
  refine Finset.sum_congr rfl fun k _ => ?_
  have hk := contrEquiv1_symm_val dot_S16x256x256_S16x256x50_S16x256x50_2_1_1_2_0_0 256 rfl rfl k
  have el : dot_S16x256x256_S16x256x50_S16x256x50_2_1_1_2_0_0.lhsIdx (ix3 b n d) ((contrEquiv1 dot_S16x256x256_S16x256x50_S16x256x50_2_1_1_2_0_0 256 rfl rfl).symm k) = ix3 b n k := funext fun a => Fin.ext (by
    match a with
    | ⟨0, _⟩ => exact edges_lhs_0 _ _
    | ⟨1, _⟩ => exact edges_lhs_1 _ _
    | ⟨2, _⟩ => exact (edges_lhs_2 _ _).trans hk)
  have er : dot_S16x256x256_S16x256x50_S16x256x50_2_1_1_2_0_0.rhsIdx (ix3 b n d) ((contrEquiv1 dot_S16x256x256_S16x256x50_S16x256x50_2_1_1_2_0_0 256 rfl rfl).symm k) = ix3 b k d := funext fun a => Fin.ext (by
    match a with
    | ⟨0, _⟩ => exact edges_rhs_0 _ _
    | ⟨1, _⟩ => exact (edges_rhs_1 _ _).trans hk
    | ⟨2, _⟩ => exact edges_rhs_2 _ _)
  rw [el, er]

/-! ## The weight product: the 4096 folded rows against the columns of the transposed weight matrix -/

theorem weights_lhs_0 (i : S4096x50.Idx) (q : dot_S4096x50_S50x50_S4096x50_1_0_0_1_n_n.contr.Idx) :
    (dot_S4096x50_S50x50_S4096x50_1_0_0_1_n_n.lhsIdx i q 0).val = (i 0).val := by
  unfold DotDims.lhsIdx
  rw [dif_neg (show ¬(0 : Fin S4096x50.rank) ∈ dot_S4096x50_S50x50_S4096x50_1_0_0_1_n_n.lhsBatch by decide), dif_pos (show (0 : Fin S4096x50.rank) ∈ dot_S4096x50_S50x50_S4096x50_1_0_0_1_n_n.lhsNonContracting by decide)]
  rfl
theorem weights_lhs_1 (i : S4096x50.Idx) (q : dot_S4096x50_S50x50_S4096x50_1_0_0_1_n_n.contr.Idx) :
    (dot_S4096x50_S50x50_S4096x50_1_0_0_1_n_n.lhsIdx i q 1).val = (q ⟨0, by decide⟩).val :=
  dot_S4096x50_S50x50_S4096x50_1_0_0_1_n_n.lhsIdx_val_of_single rfl i q
theorem weights_rhs_0 (i : S4096x50.Idx) (q : dot_S4096x50_S50x50_S4096x50_1_0_0_1_n_n.contr.Idx) :
    (dot_S4096x50_S50x50_S4096x50_1_0_0_1_n_n.rhsIdx i q 0).val = (q ⟨0, by decide⟩).val :=
  dot_S4096x50_S50x50_S4096x50_1_0_0_1_n_n.rhsIdx_val_of_single rfl i q
theorem weights_rhs_1 (i : S4096x50.Idx) (q : dot_S4096x50_S50x50_S4096x50_1_0_0_1_n_n.contr.Idx) :
    (dot_S4096x50_S50x50_S4096x50_1_0_0_1_n_n.rhsIdx i q 1).val = (i 1).val := by
  unfold DotDims.rhsIdx
  rw [dif_neg (show ¬(1 : Fin S50x50.rank) ∈ dot_S4096x50_S50x50_S4096x50_1_0_0_1_n_n.rhsBatch by decide), dif_pos (show (1 : Fin S50x50.rank) ∈ dot_S4096x50_S50x50_S4096x50_1_0_0_1_n_n.rhsNonContracting by decide)]
  rfl

/-- The plain product into a zero block, at row `r`, output feature `o`: row `r` against column `o`. -/
theorem weightProduct_apply (x : FVec Ideal S4096x50 .bf16) (w : FVec Ideal S50x50 .bf16) (r : Fin 4096) (o : Fin 50) :
    matmul dot_S4096x50_S50x50_S4096x50_1_0_0_1_n_n none x w (constant (F := Ideal) S4096x50 .f32 0x00000000#32) (ix2 r o)
      = ∑ d : Fin 50, x (ix2 r d) * w (ix2 d o) := by
  simp only [matmul]
  rw [Ideal.matmul_constant_zero_apply, ← Equiv.sum_comp (contrEquiv1 dot_S4096x50_S50x50_S4096x50_1_0_0_1_n_n 50 rfl rfl).symm]
  refine Finset.sum_congr rfl fun d _ => ?_
  have hd := contrEquiv1_symm_val dot_S4096x50_S50x50_S4096x50_1_0_0_1_n_n 50 rfl rfl d
  have el : dot_S4096x50_S50x50_S4096x50_1_0_0_1_n_n.lhsIdx (ix2 r o) ((contrEquiv1 dot_S4096x50_S50x50_S4096x50_1_0_0_1_n_n 50 rfl rfl).symm d) = ix2 r d := funext fun a => Fin.ext (by
    match a with
    | ⟨0, _⟩ => exact weights_lhs_0 _ _
    | ⟨1, _⟩ => exact (weights_lhs_1 _ _).trans hd)
  have er : dot_S4096x50_S50x50_S4096x50_1_0_0_1_n_n.rhsIdx (ix2 r o) ((contrEquiv1 dot_S4096x50_S50x50_S4096x50_1_0_0_1_n_n 50 rfl rfl).symm d) = ix2 d o := funext fun a => Fin.ext (by
    match a with
    | ⟨0, _⟩ => exact (weights_rhs_0 _ _).trans hd
    | ⟨1, _⟩ => exact weights_rhs_1 _ _)
  rw [el, er]

/-! ## Folding the rows of 16 graphs into one axis, and back -/

/-- Node `n` of the block's graph `b` is row `b * 256 + n` of the folded 4096-row matrix. -/
def row (b : Fin 16) (n : Fin 256) : Fin 4096 := ⟨b.val * 256 + n.val, by have := b.isLt; have := n.isLt; omega⟩

/-- The folded matrix at row `(b, n)` is the block at `(b, n, ·)`: both sit at the same row-major position. -/
theorem foldRows_apply {α : Type} (v : S16x256x50.Idx → α) (h : S16x256x50.ShapeCasts S4096x50) (b : Fin 16) (n : Fin 256) (d : Fin 50) :
    shapeCast S4096x50 v h (ix2 (row b n) d) = v (ix3 b n d) :=
  shapeCast_apply v h _ _ (by
    rw [Shape.rowMajor_val_two, Shape.rowMajor_val_three]
    rfl)

/-- … and the unfolded block at `(b, n, ·)` is the matrix at row `(b, n)`. -/
theorem unfoldRows_apply {α : Type} (v : S4096x50.Idx → α) (h : S4096x50.ShapeCasts S16x256x50) (b : Fin 16) (n : Fin 256) (o : Fin 50) :
    shapeCast S16x256x50 v h (ix3 b n o) = v (ix2 (row b n) o) :=
  shapeCast_apply v h _ _ (by
    rw [Shape.rowMajor_val_two, Shape.rowMajor_val_three]
    rfl)

/-! ## The stored value -/

/-- The body's one store, read at graph `b` of the block, node `n`, output feature `o`. -/
theorem stored_apply (edges : Vec Ideal S16x256x256 .f32) (nodes : Vec Ideal S16x256x50 .f32) (wt : Vec Ideal S50x50 .f32)
    (bias : Vec Ideal S50 .f32) (b : Fin 16) (n : Fin 256) (o : Fin 50) :
    k0_pay1 (F := Ideal) edges nodes wt bias (ix3 b n o)
      = max ((∑ d : Fin 50, (∑ k : Fin 256, edges (ix3 b n k) * nodes (ix3 b k d)) * wt (ix2 d o)) + bias (ix1 o)) 0 := by
  unfold k0_pay1
  rw [unfoldRows_apply, maximumf_apply, addf_apply, broadcast_apply, weightProduct_apply, broadcastTo_1b_ab_apply,
    shapeCast_a_1a_apply]
  simp only [truncf_apply, foldRows_apply, edgeProduct_apply, shapeCast_self]
  simp only [Ideal.ofBits_def, Ideal.ofBits_zero_f32]

end Cert.GraphConv.Body

end
-- ==== Proof.LayerBlocks.lean ====
/-
  From the blocks the grid steps write to the whole result array.

  The grid has 32 steps; step `t` works on graphs `16 t … 16 t + 15`. Its edge, node-feature and output windows are the
  16-graph slabs at block index `(t, 0, 0)`; the weight and bias windows are the whole (small) arrays at every step, and
  the weight window's array is not an argument but the transpose the host computes before the launch, so its entry
  `(d, o)` is `W[o, d]`. Reading each input block where the output block's element `(b, n, o)` needs it, the body's stored
  value (Proof/LayerBody.lean) is the layer's value at graph `16 t + b`: step `t` writes back block `t` of the layer. The
  32 output blocks tile the array — the step that covers graph `g` is `g / 16` — so after the run the result array is the
  layer of the four argument arrays.
-/
import proofs.«140733_j35081292874421_1_alg».proof.Proof.Gen.KernelIdeal.Value
import proofs.«140733_j35081292874421_1_alg».proof.Proof.GraphConvSpec
import proofs.«140733_j35081292874421_1_alg».proof.Proof.LayerBody
import Idealize.ShloMosaic.Lib.StableHlo.Run
import Idealize.ShloMosaic.Lib.ValueLayout

noncomputable section

open scoped BigOperators

namespace Cert.GraphConv.Blocks

open Cert.KernelIdeal Cert.KernelIdeal.Gen Cert.GraphConv Cert.GraphConv.Body
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## Where the windows sit at a grid step -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 32 steps: the three slab windows are at block `(t, 0, 0)`, the weight and
    bias windows at block zero. -/
theorem window_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- Graph `b` of step `t`'s slab is graph `16 t + b` of the batch. -/
def graph (t : Fin cfg0.N) (b : Fin 16) : Fin 512 :=
  ⟨t.val * 16 + b.val, by have h : t.val < grid0.N := t.isLt; rw [N_0] at h; have := b.isLt; omega⟩

/-! ## The input blocks, read where the output element needs them -/

/-- The edge slab at step `t` holds the edge matrices of graphs `16 t …`. -/
theorem edgeBlock_apply (c : Dev nD) (t : Fin cfg0.N) (b : Fin 16) (n k : Fin 256) :
    iblk m c 0 t (ix3 b n k) = m ((c : Thread nD τ).loc main_arg1) (ix3 (graph t b) n k) := by
  show V m c main_arg1 (((cfg0.win 0).blk t).view.emb (ix3 b n k)) = _
  refine (congrFun (V_main_arg1 m c) _).trans (congrArg _ (funext fun a => Fin.ext ?_))
  obtain ⟨e0, e1, e2, -⟩ := window_indices t
  match a with
  | ⟨0, _⟩ => show win0_0.index t (0 : Fin 3) * 16 + 1 * b.val = t.val * 16 + b.val; omega
  | ⟨1, _⟩ => show win0_0.index t (1 : Fin 3) * 256 + 1 * n.val = n.val; omega
  | ⟨2, _⟩ => show win0_0.index t (2 : Fin 3) * 256 + 1 * k.val = k.val; omega

/-- The node-feature slab at step `t` holds the features of graphs `16 t …`. -/
theorem nodeBlock_apply (c : Dev nD) (t : Fin cfg0.N) (b : Fin 16) (k : Fin 256) (d : Fin 50) :
    iblk m c 1 t (ix3 b k d) = m ((c : Thread nD τ).loc main_arg0) (ix3 (graph t b) k d) := by
  show V m c main_arg0 (((cfg0.win 1).blk t).view.emb (ix3 b k d)) = _
  refine (congrFun (V_main_arg0 m c) _).trans (congrArg _ (funext fun a => Fin.ext ?_))
  obtain ⟨-, -, -, e3, e4, e5, -⟩ := window_indices t
  match a with
  | ⟨0, _⟩ => show win0_1.index t (0 : Fin 3) * 16 + 1 * b.val = t.val * 16 + b.val; omega
  | ⟨1, _⟩ => show win0_1.index t (1 : Fin 3) * 256 + 1 * k.val = k.val; omega
  | ⟨2, _⟩ => show win0_1.index t (2 : Fin 3) * 50 + 1 * d.val = d.val; omega

/-- The array the weight window stages is what the host's one operation before the launch left: `W` transposed. -/
theorem transposedWeight (c : Dev nD) :
    (V m c main_v0 : S50x50.Idx → EReal)
      = transpose S50x50 [1, 0] (m ((c : Thread nD τ).loc main_arg2)) transposes_S50x50_S50x50_1_0 := by
  dsimp only [V, hostOps0]; after_results

/-- So the weight block, the same at every step, has `W[o, d]` at `(d, o)`. -/
theorem weightBlock_apply (c : Dev nD) (t : Fin cfg0.N) (d o : Fin 50) :
    iblk m c 2 t (ix2 d o) = m ((c : Thread nD τ).loc main_arg2) (ix2 o d) := by
  show V m c main_v0 (((cfg0.win 2).blk t).view.emb (ix2 d o)) = _
  have e : ((cfg0.win 2).blk t).view.emb (ix2 d o) = ix2 d o := funext fun a => Fin.ext (by
    obtain ⟨-, -, -, -, -, -, e6, e7, -⟩ := window_indices t
    match a with
    | ⟨0, _⟩ => show win0_2.index t (0 : Fin 2) * 50 + 1 * d.val = d.val; omega
    | ⟨1, _⟩ => show win0_2.index t (1 : Fin 2) * 50 + 1 * o.val = o.val; omega)
  refine (congrArg (V m c main_v0) e).trans ?_
  exact (congrFun (transposedWeight m c) _).trans (transpose_ix2_apply _ _ d o)

/-- The bias block, the same at every step, is the bias. -/
theorem biasBlock_apply (c : Dev nD) (t : Fin cfg0.N) (o : Fin 50) :
    iblk m c 3 t (ix1 o) = m ((c : Thread nD τ).loc main_arg3) (ix1 o) := by
  show V m c main_arg3 (((cfg0.win 3).blk t).view.emb (ix1 o)) = _
  refine (congrFun (V_main_arg3 m c) _).trans (congrArg _ (funext fun a => Fin.ext ?_))
  obtain ⟨-, -, -, -, -, -, -, -, e8, -⟩ := window_indices t
  match a with
  | ⟨0, _⟩ => show win0_3.index t (0 : Fin 1) * 50 + 1 * o.val = o.val; omega

/-! ## One step's block is the layer on its 16 graphs -/

/-- Blocks that hold, element by element, the slabs of graphs `g0 0 … g0 15`, the transposed weights and the bias: the
    body's stored value at `(b, n, o)` is the layer at graph `g0 b`. -/
theorem stored_is_layer (nfm : SNodes.Idx → EReal) (efm : SEdges.Idx → EReal) (W : SWeight.Idx → EReal) (bias : SBias.Idx → EReal)
    (g0 : Fin 16 → Fin 512)
    (edges : Vec Ideal S16x256x256 .f32) (nodes : Vec Ideal S16x256x50 .f32) (wt : Vec Ideal S50x50 .f32) (bs : Vec Ideal S50 .f32)
    (he : ∀ (b : Fin 16) (n k : Fin 256), edges (ix3 b n k) = efm (ix3 (g0 b) n k))
    (hn : ∀ (b : Fin 16) (k : Fin 256) (d : Fin 50), nodes (ix3 b k d) = nfm (ix3 (g0 b) k d))
    (hw : ∀ d o : Fin 50, wt (ix2 d o) = W (ix2 o d))
    (hb : ∀ o : Fin 50, bs (ix1 o) = bias (ix1 o))
    (b : Fin 16) (n : Fin 256) (o : Fin 50) :
    k0_pay1 (F := Ideal) edges nodes wt bs (ix3 b n o) = layer nfm efm W bias (ix3 (g0 b) n o) := by
  rw [stored_apply, layer_apply]
  simp only [layerAt, gathered, he, hn, hw, hb]

/-- WHAT STEP `t` WRITES BACK is block `t` of the layer of the argument arrays. -/
theorem written_block (c : Dev nD) (t : Fin cfg0.N) :
    (dats m 0 c).flushed 4 t = ((cfg0.win 4).blk t).view.read (Elt Ideal)
      (layer (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero zeros3]
  simp only [View.ld_unit_zero (S := S16x256x256) zeros3, View.ld_unit_zero (S := S16x256x50) zeros3,
    View.ld_unit_zero (S := S50x50) zeros2, View.ld_unit_zero (S := S50) zeros1]
  funext y
  have hy : (y : S16x256x50.Idx) = ix3 (y 0) (y 1) (y 2) := eq_ix3 y
  show k0_pay1 (F := Ideal) (iblk m c 0 t) (iblk m c 1 t) (iblk m c 2 t) (iblk m c 3 t) y
    = layer (m ((c : Thread nD τ).loc main_arg0)) (m ((c : Thread nD τ).loc main_arg1))
        (m ((c : Thread nD τ).loc main_arg2)) (m ((c : Thread nD τ).loc main_arg3)) (((cfg0.win 4).blk t).view.emb y)
  refine ((congrArg (k0_pay1 (F := Ideal) (iblk m c 0 t) (iblk m c 1 t) (iblk m c 2 t) (iblk m c 3 t)) hy).trans
    (stored_is_layer (m ((c : Thread nD τ).loc main_arg0)) (m ((c : Thread nD τ).loc main_arg1))
      (m ((c : Thread nD τ).loc main_arg2)) (m ((c : Thread nD τ).loc main_arg3))
      (graph t) (iblk m c 0 t) (iblk m c 1 t) (iblk m c 2 t) (iblk m c 3 t)
      (edgeBlock_apply m c t) (nodeBlock_apply m c t) (weightBlock_apply m c t) (biasBlock_apply m c t)
      (y 0) (y 1) (y 2))).trans
    (congrArg (layer (m ((c : Thread nD τ).loc main_arg0)) (m ((c : Thread nD τ).loc main_arg1))
      (m ((c : Thread nD τ).loc main_arg2)) (m ((c : Thread nD τ).loc main_arg3))) ?_)
  obtain ⟨-, -, -, -, -, -, -, -, -, e9, e10, e11⟩ := window_indices t
  funext a; apply Fin.ext
  match a with
  | ⟨0, _⟩ => show t.val * 16 + (y 0).val = win0_4.index t (0 : Fin 3) * 16 + 1 * (y 0).val; omega
  | ⟨1, _⟩ => show (y 1).val = win0_4.index t (1 : Fin 3) * 256 + 1 * (y 1).val; omega
  | ⟨2, _⟩ => show (y 2).val = win0_4.index t (2 : Fin 3) * 50 + 1 * (y 2).val; omega

/-! ## The blocks tile the result -/

/-- An index of the result is in step `t`'s block iff each coordinate is in the block's range on its axis. -/
theorem mem_block (t : Fin cfg0.N) (i : S512x256x50.Idx) :
    i ∈ ((cfg0.win 4).blk t).view.set ↔ ∀ a : Fin 3, win0_4.index t a * S16x256x50.size a ≤ (i a).val
      ∧ (i a).val < win0_4.index t a * S16x256x50.size a + S16x256x50.size a := by
  show i ∈ ((View.whole main_v1).slice (win0_4.rect t)).set ↔ _
  rw [View.set_slice_whole, Rect.mem_set_unit]
  exact Iff.rfl

/-- Every element of the result is written by some step: graph `g` by step `g / 16`. -/
theorem covered (i : S512x256x50.Idx) :
    ∃ t : Fin cfg0.N, (cfg0.win 4).flush t = true ∧ i ∈ ((cfg0.win 4).blk t).view.set := by
  have h0 : (i 0).val < 512 := (i 0).isLt
  have h1 : (i 1).val < 256 := (i 1).isLt
  have h2 : (i 2).val < 50 := (i 2).isLt
  obtain ⟨t, ht⟩ : ∃ t : Fin cfg0.N, t.val = (i 0).val / 16 :=
    ⟨⟨(i 0).val / 16, by show (i 0).val / 16 < grid0.N; rw [N_0]; omega⟩, rfl⟩
  refine ⟨t, flush0_4 t, ?_⟩
  rw [mem_block]
  obtain ⟨-, -, -, -, -, -, -, -, -, e9, e10, e11⟩ := window_indices t
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 256 ≤ (i 1).val ∧ (i 1).val < win0_4.index t (1 : Fin 3) * 256 + 256; omega
  | ⟨2, _⟩ => show win0_4.index t (2 : Fin 3) * 50 ≤ (i 2).val ∧ (i 2).val < win0_4.index t (2 : Fin 3) * 50 + 50; omega

/-! ## The result array, and the run -/

/-- After the run the result array is the layer of the argument arrays. -/
theorem result_array (c : Dev nD) :
    (dats m 0 c).arrAt 4 cfg0.N
      = layer (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => written_block m c t) covered

/-- Every weakly fair execution of the idealized kernel program terminates with the result at the layer of the
    arguments and the arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩)
    (Cert.KernelIdeal.Value.run_blocks m ρ)

end Cert.GraphConv.Blocks

end
-- ==== Proof.lean ====
/-
  A graph-convolution layer as a pipelined kernel against its array-language reference, over the extended reals.

  For 512 graphs of 256 nodes with 50 features each, both programs compute

      out[g, n, o] = max (sum over d of (sum over k of efm[g, n, k] * nfm[g, k, d]) * W[o, d] + b[o]) 0

  (Proof/GraphConvSpec.lean). The reference does it with two contractions over the whole arrays, a broadcast bias and a
  maximum with zero (Proof/ReferenceIsLayer.lean reads its stages at an index). The kernel walks the batch in 32 steps of
  16 graphs: per step one batched product, the rows of the 16 graphs folded into one axis, one product with the weight
  matrix the host transposed beforehand, bias, maximum, rows unfolded (Proof/LayerBody.lean reads the stored value at an
  index); step `t` writes the layer's values for graphs `16 t … 16 t + 15`, and the 32 blocks tile the result
  (Proof/LayerBlocks.lean). The narrowings to a shorter float format inside the kernel are the identity on extended
  reals, the two sides nest their sums alike and multiply in the same order, so the two results agree index by index
  without any appeal to finiteness of the inputs; the precondition is not opened.

  The three frames are the generated ones (the reference's is its generated run with the result forgotten), and the
  idealization rewrote nothing, so its soundness statement is the trivial one.
-/
import proofs.«140733_j35081292874421_1_alg».proof.Defs
import proofs.«140733_j35081292874421_1_alg».proof.Proof.Gen.Kernel
import proofs.«140733_j35081292874421_1_alg».proof.Proof.Gen.Kernel.Skeleton
import proofs.«140733_j35081292874421_1_alg».proof.Proof.Gen.Kernel.Launch
import proofs.«140733_j35081292874421_1_alg».proof.Proof.Gen.Kernel.Points
import proofs.«140733_j35081292874421_1_alg».proof.Proof.Gen.Kernel.Frame
import proofs.«140733_j35081292874421_1_alg».proof.Proof.Gen.KernelIdeal
import proofs.«140733_j35081292874421_1_alg».proof.Proof.Gen.KernelIdeal.Skeleton
import proofs.«140733_j35081292874421_1_alg».proof.Proof.Gen.KernelIdeal.Launch
import proofs.«140733_j35081292874421_1_alg».proof.Proof.Gen.KernelIdeal.Points
import proofs.«140733_j35081292874421_1_alg».proof.Proof.Gen.KernelIdeal.Frame
import proofs.«140733_j35081292874421_1_alg».proof.Proof.Gen.ReferenceIdeal
import proofs.«140733_j35081292874421_1_alg».proof.Proof.Gen.Pre_finite_inputs
import proofs.«140733_j35081292874421_1_alg».proof.Proof.Gen.KernelIdeal.Value
import proofs.«140733_j35081292874421_1_alg».proof.Proof.Gen.ReferenceIdeal.Run
import proofs.«140733_j35081292874421_1_alg».proof.Proof.Gen.ReferenceIdeal.Read
import proofs.«140733_j35081292874421_1_alg».proof.Proof.GraphConvSpec
import proofs.«140733_j35081292874421_1_alg».proof.Proof.ReferenceIsLayer
import proofs.«140733_j35081292874421_1_alg».proof.Proof.LayerBody
import proofs.«140733_j35081292874421_1_alg».proof.Proof.LayerBlocks
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with what it says of the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at the layer of those
    arguments: the kernel block by block, the reference as the last of its stages. -/
theorem algebraic : Cert.algebraic_KernelIdeal_ReferenceIdeal := by
  intro m ρ m' ρ' _ hagree
  refine ⟨fun c => Cert.GraphConv.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.GraphConv.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.GraphConv.Reference.result_is_layer _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
